-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S1x128 : Shape := ⟨2, ![1, 128]⟩
abbrev S128x64 : Shape := ⟨2, ![128, 64]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 68
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S128x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S128x64, .f32⟩
  | .hbm, ⟨66, _⟩ => ⟨S128x64, .f32⟩
  | .hbm, ⟨67, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S128x64, .f32⟩
  | .hbm, ⟨80, _⟩ => ⟨S50000x64, .f32⟩
  | .hbm, ⟨81, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.NodeLayer.lean ====
/-
  One node-update layer as a function of whole arrays, for every size.

  A layer takes the aggregated neighbour features `a` and the nodes' own features `h` (both `M × K`), two weight
  matrices already laid out `K × N`, and a bias of length `N`. Its entry `(p, j)` is

      (∑ k, a (p, k) · wl (k, j)  +  b j)  +  ∑ k, h (p, k) · wr (k, j)

  on the extended reals, in exactly this grouping: the first product, then the bias, then the second product. The
  rectified layer takes the maximum of that with zero. Row `p` of the result depends on row `p` of `a` and of `h` only,
  so a block of consecutive rows of the layer is the layer of the same block of rows: `M` is a parameter so that one
  definition serves both a block of rows and the whole array.
-/
import Idealize.ShloMosaic.PureOps.Ideal.Laws
import Idealize.ShloMosaic.Lib.ValueIdx

noncomputable section

open scoped BigOperators

namespace Cert.NodeLayer

open Idealize.ShloMosaic Idealize.ShloMosaic.ValueIdx

variable {M K N : ℕ}

/-- The layer's entry from the row and column numbers. -/
def entry (a h : FVec Ideal ⟨2, ![M, K]⟩ .f32) (wl wr : FVec Ideal ⟨2, ![K, N]⟩ .f32) (b : FVec Ideal ⟨1, ![N]⟩ .f32)
    (p : Fin M) (j : Fin N) : EReal :=
  ((∑ k : Fin K, a (ix2 p k) * wl (ix2 k j)) + b (ix1 j)) + ∑ k : Fin K, h (ix2 p k) * wr (ix2 k j)

/-- The layer without rectification, as a whole array. -/
def layer (a h : FVec Ideal ⟨2, ![M, K]⟩ .f32) (wl wr : FVec Ideal ⟨2, ![K, N]⟩ .f32) (b : FVec Ideal ⟨1, ![N]⟩ .f32) :
    FVec Ideal ⟨2, ![M, N]⟩ .f32 := fun i => entry a h wl wr b (i 0) (i 1)

/-- The rectified layer, as a whole array. -/
def reluLayer (a h : FVec Ideal ⟨2, ![M, K]⟩ .f32) (wl wr : FVec Ideal ⟨2, ![K, N]⟩ .f32) (b : FVec Ideal ⟨1, ![N]⟩ .f32) :
    FVec Ideal ⟨2, ![M, N]⟩ .f32 := fun i => max (entry a h wl wr b (i 0) (i 1)) 0

theorem layer_apply (a h : FVec Ideal ⟨2, ![M, K]⟩ .f32) (wl wr : FVec Ideal ⟨2, ![K, N]⟩ .f32) (b : FVec Ideal ⟨1, ![N]⟩ .f32)
    (p : Fin M) (j : Fin N) : layer a h wl wr b (ix2 p j) = entry a h wl wr b p j := rfl

theorem reluLayer_apply (a h : FVec Ideal ⟨2, ![M, K]⟩ .f32) (wl wr : FVec Ideal ⟨2, ![K, N]⟩ .f32) (b : FVec Ideal ⟨1, ![N]⟩ .f32)
    (p : Fin M) (j : Fin N) : reluLayer a h wl wr b (ix2 p j) = max (entry a h wl wr b p j) 0 := rfl

/-- An entry depends on its own row of `a` and of `h` only: if row `p'` of `a'`, `h'` is row `p` of `a`, `h`, the entries
    `(p', j)` and `(p, j)` agree. This is what makes a block of rows of a layer the layer of that block of rows. -/
theorem entry_congr_rows {M' : ℕ} (a h : FVec Ideal ⟨2, ![M, K]⟩ .f32) (a' h' : FVec Ideal ⟨2, ![M', K]⟩ .f32)
    (wl wr : FVec Ideal ⟨2, ![K, N]⟩ .f32) (b : FVec Ideal ⟨1, ![N]⟩ .f32) (p : Fin M) (p' : Fin M') (j : Fin N)
    (ha : ∀ k : Fin K, a' (ix2 p' k) = a (ix2 p k)) (hh : ∀ k : Fin K, h' (ix2 p' k) = h (ix2 p k)) :
    entry a' h' wl wr b p' j = entry a h wl wr b p j := by
  unfold entry
  simp only [ha, hh]

end Cert.NodeLayer

end
-- ==== Proof.BodyValue.lean ====
/-
  What each grid point's body stores, entry by entry.

  Both bodies load a block of 2000 rows of the aggregated features and of the nodes' own features, the two weight
  matrices (already transposed to `128 × n`) and the bias, narrow the four matrices to bf16, multiply into a zero
  accumulator, and add: first product, then the bias repeated down the rows, then the second product; the first body
  ends with a maximum against zero. On the extended reals a change of float format is the identity and a product
  accumulated into zero is the plain sum over the contracted axis, so the stored block is the node-update layer
  (`NodeLayer`) of the loaded blocks, at `M = 2000` rows.
-/
import proofs.«135093_j65240553226635_1_alg».proof.Proof.Gen.KernelIdeal.Skeleton
import proofs.«135093_j65240553226635_1_alg».proof.Proof.LibPlainProduct
import proofs.«135093_j65240553226635_1_alg».proof.Proof.NodeLayer
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.NodeLayer

/-! ## The two products, read at an entry -/

/-- A block of 2000 rows times a `128 × 128` matrix, accumulated into zero, at `(p, j)`: the sum over the 128 columns
    of the block's row `p` against the matrix's column `j`. The printed dimension numbers are the plain product's. -/
theorem product128_apply {φ₁ φ₂ : FTy} (x : FVec Ideal S2000x128 φ₁) (w : FVec Ideal S128x128 φ₂) (p : Fin 2000) (j : Fin 128) :
    matmul dot_S2000x128_S128x128_S2000x128_1_0_0_1_n_n none x w (constant S2000x128 .f32 0x00000000#32) (ix2 p j)
      = ∑ k : Fin 128, x (ix2 p k) * w (ix2 k j) :=
  Cert.LibPlainProduct.matmul_zero_plain_apply (M := 2000) (K := 128) (N := 128) x w none p j

/-- The same against a `128 × 64` matrix. -/
theorem product64_apply {φ₁ φ₂ : FTy} (x : FVec Ideal S2000x128 φ₁) (w : FVec Ideal S128x64 φ₂) (p : Fin 2000) (j : Fin 64) :
    matmul dot_S2000x128_S128x64_S2000x64_1_0_0_1_n_n none x w (constant S2000x64 .f32 0x00000000#32) (ix2 p j)
      = ∑ k : Fin 128, x (ix2 p k) * w (ix2 k j) :=
  Cert.LibPlainProduct.matmul_zero_plain_apply (M := 2000) (K := 128) (N := 64) x w none p j

/-! ## The bias, repeated down the rows -/

/-- A vector of length 128 viewed as one row and repeated over 2000 rows reads, at `(p, j)`, its entry `j`. -/
theorem bias128_apply (b : Vec Ideal S128 .f32) (p : Fin 2000) (j : Fin 128) :
    broadcastTo S2000x128 (shapeCast S1x128 b shapeCasts_S128_S1x128) broadcasts_S1x128_S2000x128 (ix2 p j) = b (ix1 j) := by
  rw [broadcastTo_apply _ broadcasts_S1x128_S2000x128 (ix2 p j) (ix2 (0 : Fin 1) j) (fun a => match a with | ⟨0, _⟩ => rfl | ⟨1, _⟩ => rfl)]
  exact shapeCast_apply b shapeCasts_S128_S1x128 (ix2 (0 : Fin 1) j) (ix1 j)
    (by rewrite [Shape.rowMajor_val_one, Shape.rowMajor_val_two]; show j.val = 0 * 128 + j.val; omega)

/-- The same for a vector of length 64. -/
theorem bias64_apply (b : Vec Ideal S64 .f32) (p : Fin 2000) (j : Fin 64) :
    broadcastTo S2000x64 (shapeCast S1x64 b shapeCasts_S64_S1x64) broadcasts_S1x64_S2000x64 (ix2 p j) = b (ix1 j) := by
  rw [broadcastTo_apply _ broadcasts_S1x64_S2000x64 (ix2 p j) (ix2 (0 : Fin 1) j) (fun a => match a with | ⟨0, _⟩ => rfl | ⟨1, _⟩ => rfl)]
  exact shapeCast_apply b shapeCasts_S64_S1x64 (ix2 (0 : Fin 1) j) (ix1 j)
    (by rewrite [Shape.rowMajor_val_one, Shape.rowMajor_val_two]; show j.val = 0 * 64 + j.val; omega)

/-! ## The stored blocks -/

/-- The first body's stored block at `(p, j)`: the rectified layer's entry of the loaded blocks. -/
theorem first_apply (a h : Vec Ideal S2000x128 .f32) (wl wr : Vec Ideal S128x128 .f32) (b : Vec Ideal S128 .f32)
    (p : Fin 2000) (j : Fin 128) :
    k0_pay1 (F := Ideal) a h wl wr b (ix2 p j) = max (entry a h wl wr b p j) 0 := by
  unfold k0_pay1 entry
  rw [maximumf_apply, addf_apply, addf_apply, broadcast_apply, bias128_apply,
    shapeCast_self, shapeCast_self, shapeCast_self, product128_apply, product128_apply]
  simp only [Ideal.ofBits_def, Ideal.ofBits_zero_f32]
  rfl

/-- The second body's stored block at `(p, j)`: the layer's entry of the loaded blocks, not rectified. -/
theorem second_apply (a h : Vec Ideal S2000x128 .f32) (wl wr : Vec Ideal S128x64 .f32) (b : Vec Ideal S64 .f32)
    (p : Fin 2000) (j : Fin 64) :
    k1_pay1 (F := Ideal) a h wl wr b (ix2 p j) = entry a h wl wr b p j := by
  unfold k1_pay1 entry
  rw [addf_apply, addf_apply, bias64_apply,
    shapeCast_self, shapeCast_self, shapeCast_self, shapeCast_self, product64_apply, product64_apply]
  rfl

end Cert.KernelIdeal.BodyValue

end
-- ==== Proof.Region0.lean ====
/-
  The first region's result array, from its blocks.

  The region runs 25 grid points; point `t` works on rows `2000·t … 2000·t + 1999`. It fetches those rows of the
  aggregated features and of the nodes' own features, the two whole weight matrices and the whole bias, and writes back
  the same rows of the result. What a point stores is the rectified node-update layer of its loaded blocks
  (`BodyValue.first_apply`); an entry of the layer depends on its own row of the two feature arrays only
  (`NodeLayer.entry_congr_rows`), so the stored block is the block of the whole-array layer. The 25 blocks tile the 50000
  rows (row `r` lies in the block of point `r / 2000`), so after the region the result array IS the whole-array layer of
  the arrays the region was entered with.
-/
import proofs.«135093_j65240553226635_1_alg».proof.Proof.Gen.KernelIdeal.Frame
import proofs.«135093_j65240553226635_1_alg».proof.Proof.BodyValue
import proofs.«135093_j65240553226635_1_alg».proof.Proof.NodeLayer
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.NodeLayer
open Idealize.ShloMosaic.Pipeline (Dat)

variable (V : (c : Dev nD) → (b : Ref sig .tc) → Buf (Elt Ideal) ((c : Thread nD τ).loc b))

/-! ## The arrays the region is entered with, at their literal types -/

abbrev agg (c : Dev nD) : Vec Ideal S50000x128 .f32 := V c main_v27
abbrev feat (c : Dev nD) : Vec Ideal S50000x128 .f32 := V c main_arg0
abbrev wl (c : Dev nD) : Vec Ideal S128x128 .f32 := V c main_v28
abbrev wr (c : Dev nD) : Vec Ideal S128x128 .f32 := V c main_v29
abbrev bias (c : Dev nD) : Vec Ideal S128 .f32 := V c main_arg3

/-- What the result array ends holding: the rectified layer of the entry arrays. -/
def result (c : Dev nD) : Vec Ideal S50000x128 .f32 :=
  reluLayer (agg V c) (feat V c) (wl V c) (wr V c) (bias V c)

/-! ## The index maps, decided over the 25 points -/

theorem hz2 : (![0, 0] : Fin 2 → Nat) = fun _ => 0 := funext fun a => by fin_cases a <;> rfl
theorem hz1 : (![0] : Fin 1 → Nat) = fun _ => 0 := funext fun a => by fin_cases a <;> rfl

/-- The row-blocked windows (aggregated features, own features, result) sit at block `(t, 0)`; the weights and the bias
    at block `0`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `2000·t + p` of the array. -/
def rowOf (t : Fin cfg0.N) (p : Fin 2000) : Fin 50000 :=
  ⟨t.val * 2000 + p.val, by have h1 : t.val < 25 := t.isLt; have h2 := p.isLt; omega⟩

/-! ## The blocks the point loads -/

theorem agg_block (c : Dev nD) (t : Fin cfg0.N) (p : Fin 2000) (k : Fin 128) :
    iblk0 V c 0 t (ix2 p k) = agg V c (ix2 (rowOf t p) k) := by
  obtain ⟨e0, e1, -⟩ := index_facts t
  show V c main_v27 (((cfg0.win 0).blk t).view.emb (ix2 p k)) = V c main_v27 (ix2 (rowOf t p) k)
  refine congrArg (V c main_v27) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem feat_block (c : Dev nD) (t : Fin cfg0.N) (p : Fin 2000) (k : Fin 128) :
    iblk0 V c 1 t (ix2 p k) = feat V c (ix2 (rowOf t p) k) := by
  obtain ⟨-, -, e0, e1, -⟩ := index_facts t
  show V c main_arg0 (((cfg0.win 1).blk t).view.emb (ix2 p k)) = V c main_arg0 (ix2 (rowOf t p) k)
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem wl_block (c : Dev nD) (t : Fin cfg0.N) : iblk0 V c 2 t = wl V c := by
  obtain ⟨-, -, -, -, e0, e1, -⟩ := index_facts t
  funext y
  show V c main_v28 (((cfg0.win 2).blk t).view.emb y) = V c main_v28 y
  refine congrArg (V c main_v28) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem bias_block (c : Dev nD) (t : Fin cfg0.N) : iblk0 V c 3 t = bias V c := by
  obtain ⟨-, -, -, -, -, -, e0, -⟩ := index_facts t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; omega

theorem wr_block (c : Dev nD) (t : Fin cfg0.N) : iblk0 V c 4 t = wr V c := by
  obtain ⟨-, -, -, -, -, -, -, e0, e1, -⟩ := index_facts t
  funext y
  show V c main_v29 (((cfg0.win 4).blk t).view.emb y) = V c main_v29 y
  refine congrArg (V c main_v29) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## What a point writes back -/

/-- A stored block is the block of the whole-array layer: stated over variables of the literal types, the blocks' rows
    identified with the arrays' rows by hypotheses. -/
theorem stored_eq (A X : Vec Ideal S50000x128 .f32) (WL WR : Vec Ideal S128x128 .f32) (B : Vec Ideal S128 .f32)
    (a h : Vec Ideal S2000x128 .f32) (w1 w2 : Vec Ideal S128x128 .f32) (b : Vec Ideal S128 .f32)
    (p : Fin 2000) (j : Fin 128) (r : Fin 50000)
    (ha : ∀ k : Fin 128, a (ix2 p k) = A (ix2 r k)) (hh : ∀ k : Fin 128, h (ix2 p k) = X (ix2 r k))
    (h1 : w1 = WL) (h2 : w2 = WR) (hb : b = B) :
    k0_pay1 (F := Ideal) a h w1 w2 b (ix2 p j) = reluLayer A X WL WR B (ix2 r j) := by
  subst h1 h2 hb
  rw [BodyValue.first_apply, reluLayer_apply, entry_congr_rows A X a h w1 w2 b r p j ha hh]

theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  funext y
  obtain ⟨p, j, rfl⟩ : ∃ (p : Fin 2000) (j : Fin 128), y = ix2 p j := ⟨y 0, y 1, eq_ix2 y⟩
  have hemb : ((cfg0.win 5).blk t).view.emb (ix2 p j) = ix2 (rowOf t p) j := by
    obtain ⟨-, -, -, -, -, -, -, -, -, e0, e1⟩ := index_facts t
    funext a; apply Fin.ext
    match a with
    | ⟨0, _⟩ => show win0_5.index t (0 : Fin 2) * 2000 + 1 * p.val = t.val * 2000 + p.val; omega
    | ⟨1, _⟩ => show win0_5.index t (1 : Fin 2) * 128 + 1 * j.val = j.val; omega
  show k0_pay1 (F := Ideal) (iblk0 V c 0 t) (iblk0 V c 1 t) (iblk0 V c 2 t) (iblk0 V c 4 t) (iblk0 V c 3 t) (ix2 p j)
    = result V c (((cfg0.win 5).blk t).view.emb (ix2 p j))
  rw [hemb]
  exact stored_eq (agg V c) (feat V c) (wl V c) (wr V c) (bias V c)
    (iblk0 V c 0 t) (iblk0 V c 1 t) (iblk0 V c 2 t) (iblk0 V c 4 t) (iblk0 V c 3 t) p j (rowOf t p)
    (fun k => agg_block V c t p k) (fun k => feat_block V c t p k) (wl_block V c t) (wr_block V c t) (bias_block V c t)

/-! ## The blocks tile the array -/

theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v30).slice (win0_5.rect t)).set ↔ _
  rw [View.set_slice_whole, Rect.mem_set_unit]
  exact Iff.rfl

theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, -, -, -, -, e0, e1⟩ := index_facts t
  have ht : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the region. -/
theorem array_eq (c : Dev nD) : (dat0 V c).arrAt 5 cfg0.N = result V c :=
  (dat0 V c).arrAt_eq_of_cover 5 (result V c) (fun t _ => flushed_eq V c t) (covered)

end Cert.KernelIdeal.Region0

end
-- ==== Proof.Region1.lean ====
/-
  The second region's result array, from its blocks.

  As in the first region there are 25 grid points, point `t` on rows `2000·t … 2000·t + 1999`. Here the aggregated
  features are those of the hidden layer and the nodes' own features are the hidden layer itself (the first region's
  result array); the weight matrices are `128 × 64`, the bias has length 64, and nothing is rectified. What a point
  stores is the node-update layer of its loaded blocks (`BodyValue.second_apply`), which is the block of the whole-array
  layer because an entry depends on its own row of the two feature arrays only; the 25 blocks tile the 50000 rows, so
  after the region the result array IS the whole-array layer of the arrays the region was entered with.
-/
import proofs.«135093_j65240553226635_1_alg».proof.Proof.Gen.KernelIdeal.Frame
import proofs.«135093_j65240553226635_1_alg».proof.Proof.BodyValue
import proofs.«135093_j65240553226635_1_alg».proof.Proof.NodeLayer
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.NodeLayer
open Idealize.ShloMosaic.Pipeline (Dat)

variable (V : (c : Dev nD) → (b : Ref sig .tc) → Buf (Elt Ideal) ((c : Thread nD τ).loc b))

/-! ## The arrays the region is entered with, at their literal types -/

abbrev agg (c : Dev nD) : Vec Ideal S50000x128 .f32 := V c main_v42
abbrev feat (c : Dev nD) : Vec Ideal S50000x128 .f32 := V c main_v30
abbrev wl (c : Dev nD) : Vec Ideal S128x64 .f32 := V c main_v43
abbrev wr (c : Dev nD) : Vec Ideal S128x64 .f32 := V c main_v44
abbrev bias (c : Dev nD) : Vec Ideal S64 .f32 := V c main_arg6

/-- What the result array ends holding: the layer of the entry arrays. -/
def result (c : Dev nD) : Vec Ideal S50000x64 .f32 :=
  layer (agg V c) (feat V c) (wl V c) (wr V c) (bias V c)

/-! ## The index maps, decided over the 25 points -/

theorem hz2 : (![0, 0] : Fin 2 → Nat) = fun _ => 0 := funext fun a => by fin_cases a <;> rfl
theorem hz1 : (![0] : Fin 1 → Nat) = fun _ => 0 := funext fun a => by fin_cases a <;> rfl

/-- The row-blocked windows (aggregated features, own features, result) sit at block `(t, 0)`; the weights and the bias
    at block `0`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `2000·t + p` of the array. -/
def rowOf (t : Fin cfg1.N) (p : Fin 2000) : Fin 50000 :=
  ⟨t.val * 2000 + p.val, by have h1 : t.val < 25 := t.isLt; have h2 := p.isLt; omega⟩

/-! ## The blocks the point loads -/

theorem agg_block (c : Dev nD) (t : Fin cfg1.N) (p : Fin 2000) (k : Fin 128) :
    iblk1 V c 0 t (ix2 p k) = agg V c (ix2 (rowOf t p) k) := by
  obtain ⟨e0, e1, -⟩ := index_facts t
  show V c main_v42 (((cfg1.win 0).blk t).view.emb (ix2 p k)) = V c main_v42 (ix2 (rowOf t p) k)
  refine congrArg (V c main_v42) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem feat_block (c : Dev nD) (t : Fin cfg1.N) (p : Fin 2000) (k : Fin 128) :
    iblk1 V c 1 t (ix2 p k) = feat V c (ix2 (rowOf t p) k) := by
  obtain ⟨-, -, e0, e1, -⟩ := index_facts t
  show V c main_v30 (((cfg1.win 1).blk t).view.emb (ix2 p k)) = V c main_v30 (ix2 (rowOf t p) k)
  refine congrArg (V c main_v30) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem wl_block (c : Dev nD) (t : Fin cfg1.N) : iblk1 V c 2 t = wl V c := by
  obtain ⟨-, -, -, -, e0, e1, -⟩ := index_facts t
  funext y
  show V c main_v43 (((cfg1.win 2).blk t).view.emb y) = V c main_v43 y
  refine congrArg (V c main_v43) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

theorem bias_block (c : Dev nD) (t : Fin cfg1.N) : iblk1 V c 3 t = bias V c := by
  obtain ⟨-, -, -, -, -, -, e0, -⟩ := index_facts t
  funext y
  show V c main_arg6 (((cfg1.win 3).blk t).view.emb y) = V c main_arg6 y
  refine congrArg (V c main_arg6) (funext fun a => Fin.ext ?_)
  match a with
  | ⟨0, _⟩ => show win1_3.index t (0 : Fin 1) * 64 + 1 * (y 0).val = (y 0).val; omega

theorem wr_block (c : Dev nD) (t : Fin cfg1.N) : iblk1 V c 4 t = wr V c := by
  obtain ⟨-, -, -, -, -, -, -, e0, e1, -⟩ := index_facts t
  funext y
  show V c main_v44 (((cfg1.win 4).blk t).view.emb y) = V c main_v44 y
  refine congrArg (V c main_v44) (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-! ## What a point writes back -/

/-- A stored block is the block of the whole-array layer: stated over variables of the literal types, the blocks' rows
    identified with the arrays' rows by hypotheses. -/
theorem stored_eq (A X : Vec Ideal S50000x128 .f32) (WL WR : Vec Ideal S128x64 .f32) (B : Vec Ideal S64 .f32)
    (a h : Vec Ideal S2000x128 .f32) (w1 w2 : Vec Ideal S128x64 .f32) (b : Vec Ideal S64 .f32)
    (p : Fin 2000) (j : Fin 64) (r : Fin 50000)
    (ha : ∀ k : Fin 128, a (ix2 p k) = A (ix2 r k)) (hh : ∀ k : Fin 128, h (ix2 p k) = X (ix2 r k))
    (h1 : w1 = WL) (h2 : w2 = WR) (hb : b = B) :
    k1_pay1 (F := Ideal) a h w1 w2 b (ix2 p j) = layer A X WL WR B (ix2 r j) := by
  subst h1 h2 hb
  rw [BodyValue.second_apply, layer_apply, entry_congr_rows A X a h w1 w2 b r p j ha hh]

theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x64) hz2, View.ld_unit_zero (S := S64) hz1]
  funext y
  obtain ⟨p, j, rfl⟩ : ∃ (p : Fin 2000) (j : Fin 64), y = ix2 p j := ⟨y 0, y 1, eq_ix2 y⟩
  have hemb : ((cfg1.win 5).blk t).view.emb (ix2 p j) = ix2 (rowOf t p) j := by
    obtain ⟨-, -, -, -, -, -, -, -, -, e0, e1⟩ := index_facts t
    funext a; apply Fin.ext
    match a with
    | ⟨0, _⟩ => show win1_5.index t (0 : Fin 2) * 2000 + 1 * p.val = t.val * 2000 + p.val; omega
    | ⟨1, _⟩ => show win1_5.index t (1 : Fin 2) * 64 + 1 * j.val = j.val; omega
  show k1_pay1 (F := Ideal) (iblk1 V c 0 t) (iblk1 V c 1 t) (iblk1 V c 2 t) (iblk1 V c 4 t) (iblk1 V c 3 t) (ix2 p j)
    = result V c (((cfg1.win 5).blk t).view.emb (ix2 p j))
  rw [hemb]
  exact stored_eq (agg V c) (feat V c) (wl V c) (wr V c) (bias V c)
    (iblk1 V c 0 t) (iblk1 V c 1 t) (iblk1 V c 2 t) (iblk1 V c 4 t) (iblk1 V c 3 t) p j (rowOf t p)
    (fun k => agg_block V c t p k) (fun k => feat_block V c t p k) (wl_block V c t) (wr_block V c t) (bias_block V c t)

/-! ## The blocks tile the array -/

theorem mem_block (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v45).slice (win1_5.rect t)).set ↔ _
  rw [View.set_slice_whole, Rect.mem_set_unit]
  exact Iff.rfl

theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 2000, by show (i 0).val / 2000 < 25; omega⟩
  obtain ⟨-, -, -, -, -, -, -, -, -, e0, e1⟩ := index_facts t
  have ht : t.val = (i 0).val / 2000 := rfl
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE RESULT ARRAY after the region. -/
theorem array_eq (c : Dev nD) : (dat1 V c).arrAt 5 cfg1.N = result V c :=
  (dat1 V c).arrAt_eq_of_cover 5 (result V c) (fun t _ => flushed_eq V c t) (covered)

end Cert.KernelIdeal.Region1

end
-- ==== Proof.HostValue.lean ====
/-
  The host-side values the two kernel regions are fed, as functions of what the stretch of host operations starts from.

  The edge list has two rows: sources and destinations. A node's degree is the number of edges arriving at it (a
  scatter-add of ones at the destinations), and its inverse degree is `1 / max (deg, 1)` where the degree is positive and
  zero elsewhere. An aggregation of node features `h` gathers `h` at the sources (a negative source wrapped by the node
  count first), scatter-adds the gathered rows at the destinations into zeros, and scales row `r` by node `r`'s inverse
  degree. Both layers aggregate with the SAME source row, destination row and inverse degree; only `h` differs. The
  gather and the two scatter-adds are never opened: they are carried as whole-array operations.

  Each stretch of host operations is read for an arbitrary starting valuation `W`: what it leaves in the buffers the
  regions read, in terms of `W` at the buffers it reads.
-/
import proofs.«135093_j65240553226635_1_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## The shared pieces -/

/-- The edge list's row of sources, flat. -/
def srcRow (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edge list's row of destinations, flat. -/
def dstRow (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Each node's degree: ones added at the destinations, into zeros. -/
def degree (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 (dstRow (F := F) e))
    (broadcastInDim S800000 ![] bcast_S_S800000 (constant (F := F) S_ .f32 0x3F800000#32))

/-- Each node's inverse degree, as a column: `1 / max (deg, 1)` where `deg > 0`, else `0`. -/
def invDeg (e : (⟨S2x800000, .i32⟩ : BufTy).Contents (Elt F)) : (⟨S50000x1, .f32⟩ : BufTy).Contents (Elt F) :=
  broadcastInDim S50000x1 ![0] bcast_S50000_S50000x1_0
    (select (cmpf (F := F) .ogt (degree (F := F) e) (broadcastInDim S50000 ![] bcast_S_S50000 (constant (F := F) S_ .f32 0x00000000#32)))
      (Host.divf (broadcastInDim S50000 ![] bcast_S_S50000 (constant (F := F) S_ .f32 0x3F800000#32))
        (maximumf (degree (F := F) e) (broadcastInDim S50000 ![] bcast_S_S50000 (constant (F := F) S_ .f32 0x3F800000#32))))
      (broadcastInDim S50000 ![] bcast_S_S50000 (id (constant (F := F) S_ .f32 0x00000000#32))))

/-- The mean-free aggregation of `h`: gather at the (wrapped) sources, scatter-add at the destinations into zeros, scale
    each row by its node's inverse degree. -/
def aggregate (h : (⟨S50000x128, .f32⟩ : BufTy).Contents (Elt F)) (src dst : (⟨S800000, .i32⟩ : BufTy).Contents (Elt F))
    (inv : (⟨S50000x1, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 inv)

/-! ## The operations before the first region, from any valuation -/

section Stretches
variable (W : Valuation τ sig (Elt F))

/-- The three stretches before the first region, one after the other. -/
abbrev before0 : Valuation τ sig (Elt F) := after hostOps0_2 (after hostOps0_1 (after hostOps0 W))

theorem before0_src : before0 W (Proc.devRef .tc main_v1) = srcRow (F := F) (W (Proc.devRef .tc main_arg1)) := by
  dsimp only [before0, hostOps0, hostOps0_1, hostOps0_2]; after_results_simp <;> rfl
theorem before0_dst : before0 W (Proc.devRef .tc main_v3) = dstRow (F := F) (W (Proc.devRef .tc main_arg1)) := by
  dsimp only [before0, hostOps0, hostOps0_1, hostOps0_2]; after_results_simp <;> rfl
theorem before0_inv : before0 W (Proc.devRef .tc main_v15) = invDeg (F := F) (W (Proc.devRef .tc main_arg1)) := by
  dsimp only [before0, hostOps0, hostOps0_1, hostOps0_2]; after_results_simp <;> rfl
theorem before0_agg : before0 W (Proc.devRef .tc main_v27)
    = aggregate (F := F) (W (Proc.devRef .tc main_arg0)) (srcRow (F := F) (W (Proc.devRef .tc main_arg1)))
        (dstRow (F := F) (W (Proc.devRef .tc main_arg1))) (invDeg (F := F) (W (Proc.devRef .tc main_arg1))) := by
  dsimp only [before0, hostOps0, hostOps0_1, hostOps0_2]; after_results_simp <;> rfl
theorem before0_wl : before0 W (Proc.devRef .tc main_v28)
    = transpose S128x128 [1, 0] (W (Proc.devRef .tc main_arg2)) transposes_S128x128_S128x128_1_0 := by
  dsimp only [before0, hostOps0, hostOps0_1, hostOps0_2]; after_results_simp <;> rfl
theorem before0_wr : before0 W (Proc.devRef .tc main_v29)
    = transpose S128x128 [1, 0] (W (Proc.devRef .tc main_arg4)) transposes_S128x128_S128x128_1_0 := by
  dsimp only [before0, hostOps0, hostOps0_1, hostOps0_2]; after_results_simp <;> rfl
theorem before0_x : before0 W (Proc.devRef .tc main_arg0) = W (Proc.devRef .tc main_arg0) := by
  dsimp only [before0, hostOps0, hostOps0_1, hostOps0_2]; after_results_simp <;> rfl
theorem before0_b : before0 W (Proc.devRef .tc main_arg3) = W (Proc.devRef .tc main_arg3) := by
  dsimp only [before0, hostOps0, hostOps0_1, hostOps0_2]; after_results_simp <;> rfl
theorem before0_w2l : before0 W (Proc.devRef .tc main_arg5) = W (Proc.devRef .tc main_arg5) := by
  dsimp only [before0, hostOps0, hostOps0_1, hostOps0_2]; after_results_simp <;> rfl
theorem before0_b2 : before0 W (Proc.devRef .tc main_arg6) = W (Proc.devRef .tc main_arg6) := by
  dsimp only [before0, hostOps0, hostOps0_1, hostOps0_2]; after_results_simp <;> rfl
theorem before0_w2r : before0 W (Proc.devRef .tc main_arg7) = W (Proc.devRef .tc main_arg7) := by
  dsimp only [before0, hostOps0, hostOps0_1, hostOps0_2]; after_results_simp <;> rfl

/-! ## The operations between the two regions, from any valuation -/

theorem between_agg : after hostOps1 W (Proc.devRef .tc main_v42)
    = aggregate (F := F) (W (Proc.devRef .tc main_v30)) (W (Proc.devRef .tc main_v1)) (W (Proc.devRef .tc main_v3))
        (W (Proc.devRef .tc main_v15)) := by
  dsimp only [hostOps1]; after_results_simp <;> rfl
theorem between_wl : after hostOps1 W (Proc.devRef .tc main_v43)
    = transpose S128x64 [1, 0] (W (Proc.devRef .tc main_arg5)) transposes_S64x128_S128x64_1_0 := by
  dsimp only [hostOps1]; after_results_simp <;> rfl
theorem between_wr : after hostOps1 W (Proc.devRef .tc main_v44)
    = transpose S128x64 [1, 0] (W (Proc.devRef .tc main_arg7)) transposes_S64x128_S128x64_1_0 := by
  dsimp only [hostOps1]; after_results_simp <;> rfl
theorem between_h : after hostOps1 W (Proc.devRef .tc main_v30) = W (Proc.devRef .tc main_v30) := by
  dsimp only [hostOps1]; after_results_simp <;> rfl
theorem between_b : after hostOps1 W (Proc.devRef .tc main_arg6) = W (Proc.devRef .tc main_arg6) := by
  dsimp only [hostOps1]; after_results_simp <;> rfl

end Stretches

end Cert.KernelIdeal.HostValue

end
-- ==== Proof.Network.lean ====
/-
  The whole two-layer network as one function of the eight argument arrays, on the extended reals.

  hidden  = max ( (agg x · W1lᵀ + b1) + x · W1rᵀ , 0 )
  output  =       (agg hidden · W2lᵀ + b2) + hidden · W2rᵀ

  where `agg h` is the degree-normalised neighbour sum of `h` over the edge list (`HostValue.aggregate` with the edge
  list's source row, destination row and inverse degrees) and each product with a transposed weight matrix is the
  node-update layer's sum over the 128 input features (`NodeLayer`). Both programs are shown to end with `output` of their
  arguments.
-/
import proofs.«135093_j65240553226635_1_alg».proof.Proof.HostValue
import proofs.«135093_j65240553226635_1_alg».proof.Proof.NodeLayer

noncomputable section

namespace Cert.KernelIdeal.Network

open Cert.KernelIdeal Cert.KernelIdeal.Gen Idealize.ShloMosaic Cert.NodeLayer Cert.KernelIdeal.HostValue

/-- The hidden layer: aggregate the input features, combine, rectify. -/
def hidden (x : (⟨S50000x128, .f32⟩ : BufTy).Contents (Elt Ideal)) (e : (⟨S2x800000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal)) : Vec Ideal S50000x128 .f32 :=
  reluLayer (aggregate (F := Ideal) x (srcRow (F := Ideal) e) (dstRow (F := Ideal) e) (invDeg (F := Ideal) e)) x
    (transpose S128x128 [1, 0] w1l transposes_S128x128_S128x128_1_0)
    (transpose S128x128 [1, 0] w1r transposes_S128x128_S128x128_1_0) b1

/-- The output layer: aggregate the hidden layer, combine, no rectification. -/
def output (x : (⟨S50000x128, .f32⟩ : BufTy).Contents (Elt Ideal)) (e : (⟨S2x800000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal))
    (w2l : (⟨S64x128, .f32⟩ : BufTy).Contents (Elt Ideal)) (b2 : (⟨S64, .f32⟩ : BufTy).Contents (Elt Ideal))
    (w2r : (⟨S64x128, .f32⟩ : BufTy).Contents (Elt Ideal)) : Vec Ideal S50000x64 .f32 :=
  layer (aggregate (F := Ideal) (hidden x e w1l b1 w1r) (srcRow (F := Ideal) e) (dstRow (F := Ideal) e) (invDeg (F := Ideal) e))
    (hidden x e w1l b1 w1r)
    (transpose S128x64 [1, 0] w2l transposes_S64x128_S128x64_1_0)
    (transpose S128x64 [1, 0] w2r transposes_S64x128_S128x64_1_0) b2

end Cert.KernelIdeal.Network

end
-- ==== Proof.KernelValue.lean ====
/-
  The idealized kernel's run, with its result named.

  The run's result array is the second region's result window at the last boundary of the launch fold. Walking the fold
  back: the second region leaves the layer of the arrays it was entered with (`Region1.array_eq`); those are what the
  host operations between the regions make of the first region's exit contents (an aggregation of the first region's
  result, that result itself, two transposed weight matrices, the second bias); the first region leaves the rectified
  layer of the arrays IT was entered with (`Region0.array_eq`), which the host operations before it make of the launch
  memory. A region changes only its own result array, so the edge list's rows and the inverse degrees computed before the
  first region are still there after it. Put together, the result is `Network.output` of the eight argument arrays.
-/
import proofs.«135093_j65240553226635_1_alg».proof.Proof.KernelRun
import proofs.«135093_j65240553226635_1_alg».proof.Proof.Region0
import proofs.«135093_j65240553226635_1_alg».proof.Proof.Region1
import proofs.«135093_j65240553226635_1_alg».proof.Proof.Network

set_option maxRecDepth 16384

noncomputable section

namespace Cert.KernelIdeal.Value

open Cert.KernelIdeal Cert.KernelIdeal.Gen Idealize.ShloMosaic Idealize.ShloMosaic.TcCoe Idealize.SL.Sem
open Cert.KernelIdeal.HostValue Cert.KernelIdeal.Network

variable (m : (ℓ : Loc nD τ sig) → Buf (Elt Ideal) ℓ) (ρ : Dev nD → PrngReg)

/-! ## The first region: entered after the three leading stretches of host operations -/

/-- The first region's result array: the hidden layer of the arguments. -/
theorem hidden_eq (c : Dev nD) :
    (dat0 (V3 m ρ) c).arrAt 5 cfg0.N
      = Network.hidden (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have h1 : Region0.agg (V3 m ρ) c = aggregate (F := Ideal) (m ((c.tc : Thread nD τ).loc main_arg0))
      (srcRow (F := Ideal) (m ((c.tc : Thread nD τ).loc main_arg1))) (dstRow (F := Ideal) (m ((c.tc : Thread nD τ).loc main_arg1)))
      (invDeg (F := Ideal) (m ((c.tc : Thread nD τ).loc main_arg1))) := before0_agg (W0 m ρ c)
  have h2 : Region0.feat (V3 m ρ) c = m ((c.tc : Thread nD τ).loc main_arg0) := before0_x (W0 m ρ c)
  have h3 : Region0.wl (V3 m ρ) c = transpose S128x128 [1, 0] (m ((c.tc : Thread nD τ).loc main_arg2)) transposes_S128x128_S128x128_1_0 :=
    before0_wl (W0 m ρ c)
  have h4 : Region0.wr (V3 m ρ) c = transpose S128x128 [1, 0] (m ((c.tc : Thread nD τ).loc main_arg4)) transposes_S128x128_S128x128_1_0 :=
    before0_wr (W0 m ρ c)
  have h5 : Region0.bias (V3 m ρ) c = m ((c.tc : Thread nD τ).loc main_arg3) := before0_b (W0 m ρ c)
  rw [Region0.array_eq]
  unfold Region0.result Network.hidden
  rw [h1, h2, h3, h4, h5]

/-! ## Across the first region: only its result array changes -/

theorem exit0_hidden (c : Dev nD) : W4 m ρ c (Proc.devRef .tc main_v30)
    = Network.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (W4_arr m ρ c 5).trans (hidden_eq m ρ c)

theorem exit0_src (c : Dev nD) : W4 m ρ c (Proc.devRef .tc main_v1) = srcRow (F := Ideal) (m ((c.tc : Thread nD τ).loc main_arg1)) :=
  (W4_of_ne m ρ c main_v1 (by decide)).trans (before0_src (W0 m ρ c))
theorem exit0_dst (c : Dev nD) : W4 m ρ c (Proc.devRef .tc main_v3) = dstRow (F := Ideal) (m ((c.tc : Thread nD τ).loc main_arg1)) :=
  (W4_of_ne m ρ c main_v3 (by decide)).trans (before0_dst (W0 m ρ c))
theorem exit0_inv (c : Dev nD) : W4 m ρ c (Proc.devRef .tc main_v15) = invDeg (F := Ideal) (m ((c.tc : Thread nD τ).loc main_arg1)) :=
  (W4_of_ne m ρ c main_v15 (by decide)).trans (before0_inv (W0 m ρ c))
theorem exit0_w2l (c : Dev nD) : W4 m ρ c (Proc.devRef .tc main_arg5) = m ((c.tc : Thread nD τ).loc main_arg5) :=
  (W4_of_ne m ρ c main_arg5 (by decide)).trans (before0_w2l (W0 m ρ c))
theorem exit0_b2 (c : Dev nD) : W4 m ρ c (Proc.devRef .tc main_arg6) = m ((c.tc : Thread nD τ).loc main_arg6) :=
  (W4_of_ne m ρ c main_arg6 (by decide)).trans (before0_b2 (W0 m ρ c))
theorem exit0_w2r (c : Dev nD) : W4 m ρ c (Proc.devRef .tc main_arg7) = m ((c.tc : Thread nD τ).loc main_arg7) :=
  (W4_of_ne m ρ c main_arg7 (by decide)).trans (before0_w2r (W0 m ρ c))

/-! ## The second region: entered after the host operations between the regions -/

/-- The second region's result array: the network's output of the arguments. -/
theorem output_eq (c : Dev nD) :
    (dat1 (V5 m ρ) c).arrAt 5 cfg1.N
      = Network.output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  have h1 : Region1.agg (V5 m ρ) c = aggregate (F := Ideal)
      (Network.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (srcRow (F := Ideal) (m ((c.tc : Thread nD τ).loc main_arg1))) (dstRow (F := Ideal) (m ((c.tc : Thread nD τ).loc main_arg1)))
      (invDeg (F := Ideal) (m ((c.tc : Thread nD τ).loc main_arg1))) := by
    refine (between_agg (W4 m ρ c)).trans ?_
    rw [exit0_hidden, exit0_src, exit0_dst, exit0_inv]
  have h2 : Region1.feat (V5 m ρ) c = Network.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
    (between_h (W4 m ρ c)).trans (exit0_hidden m ρ c)
  have h3 : Region1.wl (V5 m ρ) c = transpose S128x64 [1, 0] (m ((c.tc : Thread nD τ).loc main_arg5)) transposes_S64x128_S128x64_1_0 := by
    refine (between_wl (W4 m ρ c)).trans ?_
    rw [exit0_w2l]
  have h4 : Region1.wr (V5 m ρ) c = transpose S128x64 [1, 0] (m ((c.tc : Thread nD τ).loc main_arg7)) transposes_S64x128_S128x64_1_0 := by
    refine (between_wr (W4 m ρ c)).trans ?_
    rw [exit0_w2r]
  have h5 : Region1.bias (V5 m ρ) c = m ((c.tc : Thread nD τ).loc main_arg6) :=
    (between_b (W4 m ρ c)).trans (exit0_b2 m ρ c)
  rw [Region1.array_eq]
  unfold Region1.result Network.output
  rw [h1, h2, h3, h4, h5]

/-- The result array at the last boundary of the fold. -/
theorem final_eq (c : Dev nD) : W6 m ρ c (Proc.devRef .tc main_v45)
    = Network.output (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) :=
  (W6_arr m ρ c 5).trans (output_eq m ρ c)

/-! ## The run -/

/-- Every weakly fair execution of the idealized kernel terminates with the result array at the network's output of the
    arguments, the arguments unchanged. -/
theorem run : θ_run defs (onTc (τ := τ) (main (F := Ideal))) ⟨m, fun _ => 0, ρ⟩ (fun r => ∀ c : Dev nD,
      r.2.mem ((c.tc : Thread nD τ).loc main_v45)
        = Network.output (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final_eq m ρ c), (h c).2⟩) (Cert.KernelIdeal.GenP.run_named m ρ)

end Cert.KernelIdeal.Value

end
-- ==== Proof.RefValue.lean ====
/-
  The idealized reference's result is the network's output of its arguments.

  The reference computes the same two layers with whole-array operations: an aggregation, a transposed weight matrix, a
  host matrix product, the bias broadcast over the rows, the second product, and for the hidden layer a maximum with zero.
  Read at an entry (the generated read lemmas), a host product is the sum over the 128 contracted features of the left
  operand's row against the right operand's column, and the bias read through its two broadcasts is the bias entry of the
  column: that is the node-update layer's entry, in the same grouping. The aggregations are the same whole-array terms as
  on the kernel's side (the gather and the scatter-adds are never opened): the reference writes the broadcasts of the
  inverse degrees once per layer, the same functions of the same edge list.
-/
import proofs.«135093_j65240553226635_1_alg».proof.Proof.RefRead
import proofs.«135093_j65240553226635_1_alg».proof.Proof.Network
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Cert.NodeLayer

/-! ## The aggregations, as whole-array terms (any float family) -/

section Aggregations
variable {F : FTy → Type} [FloatOps F]

/-- The first layer's aggregated features. -/
theorem agg_input (x0 : (⟨S50000x128, .f32⟩ : BufTy).Contents (Elt F)) (x1 : (⟨S2x800000, .i32⟩ : BufTy).Contents (Elt F)) :
    val_main_v27 (F := F) x0 x1
      = Cert.KernelIdeal.HostValue.aggregate (F := F) x0 (Cert.KernelIdeal.HostValue.srcRow (F := F) x1)
          (Cert.KernelIdeal.HostValue.dstRow (F := F) x1) (Cert.KernelIdeal.HostValue.invDeg (F := F) x1) := rfl

/-- The second layer's aggregated features: the same aggregation of the hidden layer. -/
theorem agg_hidden (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v49 (F := F) x0 x1 x2 x3 x4
      = Cert.KernelIdeal.HostValue.aggregate (F := F) (val_main_v36 (F := F) x0 x1 x2 x3 x4) (Cert.KernelIdeal.HostValue.srcRow (F := F) x1)
          (Cert.KernelIdeal.HostValue.dstRow (F := F) x1) (Cert.KernelIdeal.HostValue.invDeg (F := F) x1) := rfl

end Aggregations

/-! ## The hidden layer -/

theorem hidden_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v36 (F := Ideal) x0 x1 x2 x3 x4 = Cert.KernelIdeal.Network.hidden x0 x1 x2 x3 x4 := by
  have hl : reluLayer (val_main_v27 (F := Ideal) x0 x1) x0 (val_main_v28 (F := Ideal) x2) (val_main_v33 (F := Ideal) x4) x3
      = Cert.KernelIdeal.Network.hidden x0 x1 x2 x3 x4 := by
    rw [agg_input]; rfl
  rw [← hl]
  funext i
  obtain ⟨p, j, rfl⟩ : ∃ (p : Fin 50000) (j : Fin 128), i = ix2 p j := ⟨i 0, i 1, eq_ix2 i⟩
  rw [val_main_v36_apply, val_main_v35_apply, val_main_v32_apply, val_main_v29_apply, val_main_v31_apply, val_main_v30_apply,
    val_main_v34_apply, val_main_call1_v0_apply, val_main_call1_cst_apply, reluLayer_apply]
  unfold entry
  have e1 : ∀ k : Fin 128, lidx_main_v29 (ix2 p j) k = ix2 p k := fun k => funext fun a => Fin.ext (by
    match a with | ⟨0, _⟩ => rfl | ⟨1, _⟩ => rfl)
  have e2 : ∀ k : Fin 128, ridx_main_v29 (ix2 p j) k = ix2 k j := fun k => funext fun a => Fin.ext (by
    match a with | ⟨0, _⟩ => rfl | ⟨1, _⟩ => rfl)
  have e3 : ∀ k : Fin 128, lidx_main_v34 (ix2 p j) k = ix2 p k := fun k => funext fun a => Fin.ext (by
    match a with | ⟨0, _⟩ => rfl | ⟨1, _⟩ => rfl)
  have e4 : ∀ k : Fin 128, ridx_main_v34 (ix2 p j) k = ix2 k j := fun k => funext fun a => Fin.ext (by
    match a with | ⟨0, _⟩ => rfl | ⟨1, _⟩ => rfl)
  have e5 : idx_main_v30 (idx_main_v31 (ix2 p j)) = ix1 j := funext fun a => Fin.ext (by
    match a with | ⟨0, _⟩ => rfl)
  simp only [e1, e2, e3, e4, e5, Ideal.addf_def, Ideal.maximumf_def, Ideal.ofBits_def, Ideal.ofBits_zero_f32]

/-! ## The output layer -/

theorem output_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    val_main_v57 (F := Ideal) x0 x1 x2 x3 x4 x5 x6 x7 = Cert.KernelIdeal.Network.output x0 x1 x2 x3 x4 x5 x6 x7 := by
  have hl : layer (val_main_v49 (F := Ideal) x0 x1 x2 x3 x4) (val_main_v36 (F := Ideal) x0 x1 x2 x3 x4)
      (val_main_v50 (F := Ideal) x5) (val_main_v55 (F := Ideal) x7) x6
      = Cert.KernelIdeal.Network.output x0 x1 x2 x3 x4 x5 x6 x7 := by
    rw [agg_hidden, hidden_eq]; rfl
  rw [← hl]
  funext i
  obtain ⟨p, j, rfl⟩ : ∃ (p : Fin 50000) (j : Fin 64), i = ix2 p j := ⟨i 0, i 1, eq_ix2 i⟩
  rw [val_main_v57_apply, val_main_v54_apply, val_main_v51_apply, val_main_v53_apply, val_main_v52_apply,
    val_main_v56_apply, layer_apply]
  unfold entry
  have e1 : ∀ k : Fin 128, lidx_main_v51 (ix2 p j) k = ix2 p k := fun k => funext fun a => Fin.ext (by
    match a with | ⟨0, _⟩ => rfl | ⟨1, _⟩ => rfl)
  have e2 : ∀ k : Fin 128, ridx_main_v51 (ix2 p j) k = ix2 k j := fun k => funext fun a => Fin.ext (by
    match a with | ⟨0, _⟩ => rfl | ⟨1, _⟩ => rfl)
  have e3 : ∀ k : Fin 128, lidx_main_v56 (ix2 p j) k = ix2 p k := fun k => funext fun a => Fin.ext (by
    match a with | ⟨0, _⟩ => rfl | ⟨1, _⟩ => rfl)
  have e4 : ∀ k : Fin 128, ridx_main_v56 (ix2 p j) k = ix2 k j := fun k => funext fun a => Fin.ext (by
    match a with | ⟨0, _⟩ => rfl | ⟨1, _⟩ => rfl)
  have e5 : idx_main_v52 (idx_main_v53 (ix2 p j)) = ix1 j := funext fun a => Fin.ext (by
    match a with | ⟨0, _⟩ => rfl)
  simp only [e1, e2, e3, e4, e5, Ideal.addf_def]

/-! ## The run's result -/

/-- The reference run's result term is the network's output of the reference's argument arrays. -/
theorem result_eq (m : (ℓ : Loc nD τ sig) → Buf (Elt Ideal) ℓ) (c : Dev nD) :
    Cert.ReferenceIdeal.ValueP.res_main_v57 m c
      = Cert.KernelIdeal.Network.output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  (val_main_v57_eq (F := Ideal) m c).trans (output_eq _ _ _ _ _ _ _ _)

end Cert.ReferenceIdeal.RefValue

end
-- ==== Proof.lean ====
/-
  A two-layer graph network on 50000 nodes and 800000 edges: the Pallas kernel against its jnp reference, over the
  extended reals.

  Both programs compute, from the node features `x`, the edge list and six weight arrays,

      hidden = max ((agg x · W1lᵀ + b1) + x · W1rᵀ, 0),      output = (agg hidden · W2lᵀ + b2) + hidden · W2rᵀ,

  where `agg h` gathers `h` at the edges' sources, sums the gathered rows at the edges' destinations and scales each node's
  row by its inverse degree. The gather, the scatter-sums and the degree computation are the same host operations in both
  programs, so they are carried as whole-array terms and never opened. What differs is the dense part. The kernel does
  each layer in a pipelined region of 25 points, 2000 rows a point, with the four matrices narrowed to bf16 and multiplied
  into a zero accumulator; the reference does it with two whole-array host products. On the extended reals a change of
  float format is the identity and either product is the plain sum over the 128 contracted features, and the two programs
  add the first product, the bias and the second product in the same grouping, so entry by entry they compute the same
  extended real: no law of the extended reals beyond that is used, and the finiteness of the inputs is not needed.

  The modules: `NodeLayer` (one layer as a function of whole arrays, for any number of rows), `BodyValue` (what a grid
  point stores is the layer of its loaded blocks), `Region0` / `Region1` (the blocks tile the array: each region's result
  array is the whole-array layer of the arrays it was entered with), `HostValue` (the shared host operations, per
  stretch), `Network` (the closed form), `KernelValue` (the kernel's run ends at the closed form), `RefValue` (so does
  the reference's).
-/
import proofs.«135093_j65240553226635_1_alg».proof.Defs
import proofs.«135093_j65240553226635_1_alg».proof.Proof.Gen.Kernel
import proofs.«135093_j65240553226635_1_alg».proof.Proof.Gen.Kernel.Skeleton
import proofs.«135093_j65240553226635_1_alg».proof.Proof.Gen.Kernel.Launch
import proofs.«135093_j65240553226635_1_alg».proof.Proof.Gen.Kernel.Points
import proofs.«135093_j65240553226635_1_alg».proof.Proof.Gen.Kernel.Frame
import proofs.«135093_j65240553226635_1_alg».proof.Proof.Gen.KernelIdeal
import proofs.«135093_j65240553226635_1_alg».proof.Proof.Gen.KernelIdeal.Skeleton
import proofs.«135093_j65240553226635_1_alg».proof.Proof.Gen.KernelIdeal.Launch
import proofs.«135093_j65240553226635_1_alg».proof.Proof.Gen.KernelIdeal.Points
import proofs.«135093_j65240553226635_1_alg».proof.Proof.Gen.KernelIdeal.Frame
import proofs.«135093_j65240553226635_1_alg».proof.Proof.Gen.ReferenceIdeal
import proofs.«135093_j65240553226635_1_alg».proof.Proof.Gen.Pre_finite_inputs
import proofs.«135093_j65240553226635_1_alg».proof.Proof.RefRun
import proofs.«135093_j65240553226635_1_alg».proof.Proof.RefRead
import proofs.«135093_j65240553226635_1_alg».proof.Proof.KernelValue
import proofs.«135093_j65240553226635_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- Both idealized programs end with the network's output of the arguments: the kernel's run (`KernelValue`) and the
    reference's (`RefValue`), from memories that agree on the eight arguments. -/
theorem algebraic : Cert.algebraic_KernelIdeal_ReferenceIdeal := by
  intro m ρ m' ρ' _ hagree
  refine ⟨fun c => Cert.KernelIdeal.Network.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
